-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S50000x128 .f32) (main_arg1 : IVec S2x625000 32) (main_arg2 : FVec F S128x128 .f32) (main_arg3 : FVec F S128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩

abbrev nBuf : Space → Nat
  | .hbm => 36
  | .vmem => 9
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S50000x128, .f32⟩
  | .hbm, ⟨20, _⟩ => ⟨S625000x1, .i32⟩
  | .hbm, ⟨21, _⟩ => ⟨S50000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S50000, .f32⟩
  | .hbm, ⟨26, _⟩ => ⟨S625000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S1x128, .f32⟩
  | .hbm, ⟨35, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x625000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S50000x128, .f32⟩
  | .hbm, ⟨20, _⟩ => ⟨S625000x1, .i32⟩
  | .hbm, ⟨21, _⟩ => ⟨S50000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S50000, .f32⟩
  | .hbm, ⟨26, _⟩ => ⟨S625000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S625000x1_S625000x128_1_0_n_n_0_1_1128_wf : GatherDims.WF S50000x128 S625000x1 S625000x128 [1] [0] [] [0] [] 1 ![1, 128]
  scatter_S50000x128_S625000x1_S625000x128_1_0_0_1_wf : ScatterDims.WF S50000x128 S625000x1 S625000x128 [1] [0] [0] 1
  scatter_S50000_S625000x1_S625000_n_0_0_1_wf : ScatterDims.WF S50000 S625000x1 S625000 [] [0] [0] 1
  dot_S50000x128_S128x128_S50000x128_1_0_0_1_n_n_wf : DotDims.WF S50000x128 S128x128 S50000x128 [1] [0] [0] [1] [] []

variable [Facts₀]

def gather_S50000x128_S625000x1_S625000x128_1_0_n_n_0_1_1128 : GatherDims S50000x128 S625000x1 S625000x128 where
  offsetDims := [1]
  collapsedSliceDims := [0]
  operandBatchingDims := []
  startIndicesBatchingDims := []
  startIndexMap := [0]
  indexVectorDim := 1
  sliceSizes := ![1, 128]
  wf := gather_S50000x128_S625000x1_S625000x128_1_0_n_n_0_1_1128_wf
def scatter_S50000x128_S625000x1_S625000x128_1_0_0_1 : ScatterDims S50000x128 S625000x1 S625000x128 where
  updateWindowDims := [1]
  insertedWindowDims := [0]
  scatterDimsToOperandDims := [0]
  indexVectorDim := 1
  wf := scatter_S50000x128_S625000x1_S625000x128_1_0_0_1_wf
def scatter_S50000_S625000x1_S625000_n_0_0_1 : ScatterDims S50000 S625000x1 S625000 where
  updateWindowDims := []
  insertedWindowDims := [0]
  scatterDimsToOperandDims := [0]
  indexVectorDim := 1
  wf := scatter_S50000_S625000x1_S625000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.DenseBlock.lean ====
/-
  What the kernel body computes on one block of 2000 nodes, read at an entry (p, q) of the block.

  The body multiplies the block of neighbour means by the first weight matrix and the block of node features by
  the second, both into a zero accumulator; at the extended reals each product is the plain sum over the 128
  contracted channels, and narrowing an operand to a shorter float format is the identity. The bias arrives as one
  row and is repeated down the 2000 rows. So the stored value at (p, q) is

      x[p,q] + max( ((sum_k mean[p,k] * wl[k,q]) + bias[0,q]) + sum_k x[p,k] * wr[k,q] , 0 ).
-/
import proofs.«123076_j31138512896564_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.DenseBlock

open Cert.KernelIdeal Cert.KernelIdeal.Gen Idealize.ShloMosaic Idealize.ShloMosaic.ValueIdx

/-! ## The product's operand indices, axis by axis

The dimension numbers contract the left operand's axis 1 with the right operand's axis 0 and keep the left
operand's axis 0 and the right operand's axis 1: at output index `i` and contraction index `k` the left operand is
read at (i 0, k) and the right one at (k, i 1). -/

theorem lhs_axis0 (i : S2000x128.Idx) (k : dot_S2000x128_S128x128_S2000x128_1_0_0_1_n_n.contr.Idx) :
    (dot_S2000x128_S128x128_S2000x128_1_0_0_1_n_n.lhsIdx i k 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_axis1 (i : S2000x128.Idx) (k : dot_S2000x128_S128x128_S2000x128_1_0_0_1_n_n.contr.Idx) :
    (dot_S2000x128_S128x128_S2000x128_1_0_0_1_n_n.lhsIdx i k 1).val = (k ⟨0, by decide⟩).val :=
  dot_S2000x128_S128x128_S2000x128_1_0_0_1_n_n.lhsIdx_val_of_single rfl i k
theorem rhs_axis0 (i : S2000x128.Idx) (k : dot_S2000x128_S128x128_S2000x128_1_0_0_1_n_n.contr.Idx) :
    (dot_S2000x128_S128x128_S2000x128_1_0_0_1_n_n.rhsIdx i k 0).val = (k ⟨0, by decide⟩).val :=
  dot_S2000x128_S128x128_S2000x128_1_0_0_1_n_n.rhsIdx_val_of_single rfl i k
theorem rhs_axis1 (i : S2000x128.Idx) (k : dot_S2000x128_S128x128_S2000x128_1_0_0_1_n_n.contr.Idx) :
    (dot_S2000x128_S128x128_S2000x128_1_0_0_1_n_n.rhsIdx i k 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- A 2000 x 128 block times a 128 x 128 matrix into the zero accumulator, at entry (p, q): the sum over the 128
    contracted channels of the products, whatever formats the operands were narrowed to. -/
theorem matmul_block {φ₁ φ₂ : FTy} (l : FVec Ideal S2000x128 φ₁) (r : FVec Ideal S128x128 φ₂) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  show FloatOps.matmul dot_S2000x128_S128x128_S2000x128_1_0_0_1_n_n none l r (constant S2000x128 .f32 0x00000000#32) (ix2 p q) = _
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- One row repeated down 2000 rows reads, at (p, q), the row's entry q. -/
theorem row_broadcast {α : Type} (v : S1x128.Idx → α) (h : S1x128.Broadcasts S2000x128) (p : Fin 2000) (q : Fin 128) :
    broadcastTo S2000x128 v h (ix2 p q) = v (ix2 (0 : Fin 1) q) :=
  broadcastTo_apply v h (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- THE STORED VALUE at entry (p, q) of a block, from the five loaded blocks: neighbour means `v0`, node features
    `v3`, the two weight matrices `v5`, `v7` and the bias row `v11`. -/
theorem payload_apply (v0 v3 : Vec Ideal S2000x128 .f32) (v5 v7 : Vec Ideal S128x128 .f32) (v11 : Vec Ideal S1x128 .f32)
    (p : Fin 2000) (q : Fin 128) :
    k0_pay1 (F := Ideal) v0 v3 v5 v7 v11 (ix2 p q)
      = v3 (ix2 p q) + max (((∑ k : Fin 128, v0 (ix2 p k) * v5 (ix2 k q)) + v11 (ix2 (0 : Fin 1) q))
          + ∑ k : Fin 128, v3 (ix2 p k) * v7 (ix2 k q)) (Ideal.ofBits .f32 0x00000000#32) := by
  unfold k0_pay1
  rw [addf_apply, maximumf_apply, addf_apply, addf_apply, matmul_block, matmul_block, row_broadcast,
    shapeCast_self, shapeCast_self]
  rfl

end Cert.KernelIdeal.DenseBlock

end
-- ==== Proof.SageLayer.lean ====
/-
  One mean-aggregating graph layer with a residual connection, written index by index over the extended reals.

  For node features `x` (50000 nodes, 128 channels), the per-node mean `mean` of the neighbours' features, two
  128 x 128 weight matrices `wl`, `wr` and a bias `b`, the layer's value at node `r`, channel `q` is

      x[r,q] + max( ((sum_k mean[r,k] * wl[k,q]) + b[q]) + sum_k x[r,k] * wr[k,q] , 0 ).

  The grouping of the three summands is the one both programs use, so no law of the extended reals is needed to
  join them, and the zero under the maximum is kept as the word both programs print (it is never evaluated).
  How `mean` is obtained from `x` and the edge list (a gather, two scatter-adds and a division) is the same
  sequence of host operations in both programs; here it is an argument.
-/
import Idealize.ShloMosaic.PureOps.Ideal
import Idealize.ShloMosaic.Lib.ValueIdx

noncomputable section

open scoped BigOperators

namespace Cert.SageLayer

open Idealize.ShloMosaic Idealize.ShloMosaic.ValueIdx

/-- Node features, and neighbour means: 50000 nodes by 128 channels. -/
abbrev Nodes : Shape := ⟨2, ![50000, 128]⟩
/-- A weight matrix: input channel by output channel. -/
abbrev Weights : Shape := ⟨2, ![128, 128]⟩
/-- The bias: one entry per output channel. -/
abbrev Bias : Shape := ⟨1, ![128]⟩

/-- The pre-activation at node `r`, output channel `q`: the neighbours' mean through `wl`, plus the bias, plus the
    node's own features through `wr`, grouped `(a + b) + c`. -/
def preact (x mean : Nodes.Idx → EReal) (wl wr : Weights.Idx → EReal) (b : Bias.Idx → EReal)
    (r : Fin 50000) (q : Fin 128) : EReal :=
  ((∑ k : Fin 128, mean (ix2 r k) * wl (ix2 k q)) + b (ix1 q)) + ∑ k : Fin 128, x (ix2 r k) * wr (ix2 k q)

/-- The layer: the node's features plus the rectified pre-activation. -/
def layer (x mean : Nodes.Idx → EReal) (wl wr : Weights.Idx → EReal) (b : Bias.Idx → EReal) : Nodes.Idx → EReal :=
  fun i => x i + max (preact x mean wl wr b (i 0) (i 1)) (Ideal.ofBits .f32 0x00000000#32)

/-- The layer at an index given by its coordinates. -/
theorem layer_apply (x mean : Nodes.Idx → EReal) (wl wr : Weights.Idx → EReal) (b : Bias.Idx → EReal)
    (r : Fin 50000) (q : Fin 128) :
    layer x mean wl wr b (ix2 r q)
      = x (ix2 r q) + max (preact x mean wl wr b r q) (Ideal.ofBits .f32 0x00000000#32) := rfl

end Cert.SageLayer

end
-- ==== Proof.LayerBlocks.lean ====
/-
  From blocks to the whole array: after the run the kernel's result array is the layer of SageLayer.lean, of the
  arrays as the region finds them.

  The grid has 25 points; point t works on nodes 2000 t ... 2000 t + 1999. Its blocks of the neighbour means and of
  the node features are those rows of the two arrays, the two weight matrices and the bias row are handed over
  whole at every point, and what it writes back is rows 2000 t ... 2000 t + 1999 of the result. A row of the layer
  depends only on the same row of the means and of the features, so the value the body stores at entry (p, q) of
  its block is the layer at (2000 t + p, q); the 25 row blocks tile the 50000 rows, so the array ends holding the
  layer everywhere.
-/
import proofs.«123076_j31138512896564_1_alg».proof.Proof.Gen.KernelIdeal.Value
import proofs.«123076_j31138512896564_1_alg».proof.Proof.DenseBlock
import proofs.«123076_j31138512896564_1_alg».proof.Proof.SageLayer
import Idealize.ShloMosaic.Lib.Pipeline.Value
import Idealize.ShloMosaic.Lib.ValueIdx

set_option maxRecDepth 16384

noncomputable section

open scoped BigOperators

namespace Cert.KernelIdeal.LayerBlocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The five arrays the region reads, as it finds them -/

/-- The node features. -/
abbrev feats (c : Dev nD) : S50000x128.Idx → EReal := V m c main_arg0
/-- The neighbour means the host operations computed. -/
abbrev means (c : Dev nD) : S50000x128.Idx → EReal := V m c main_v22
/-- The weights applied to the neighbour means. -/
abbrev wNbr (c : Dev nD) : S128x128.Idx → EReal := V m c main_arg2
/-- The bias, as one row. -/
abbrev biasRow (c : Dev nD) : S1x128.Idx → EReal := V m c main_v23
/-- The weights applied to the node's own features. -/
abbrev wSelf (c : Dev nD) : S128x128.Idx → EReal := V m c main_arg4

/-- THE RESULT ARRAY: the layer of those five arrays (the bias read off its row). -/
def result (c : Dev nD) : S50000x128.Idx → EReal :=
  Cert.SageLayer.layer (feats m c) (means m c) (wNbr m c) (wSelf m c) (fun b => biasRow m c (ix2 (0 : Fin 1) (b 0)))

/-! ## Which block each window hands over at a point -/

theorem zero_offsets : (![0, 0] : Fin 2 → Nat) = fun _ => 0 := funext fun a => by fin_cases a <;> rfl

/-- The printed index maps, decided over the 25 points: the means, the features and the result move with the point
    along the rows; the weights and the bias row stay at block (0, 0). -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's block is node 2000 t + p. -/
def nodeOf (t : Fin cfg0.N) (p : Fin 2000) : Fin 50000 :=
  ⟨t.val * 2000 + p.val, by have := t.isLt; have hN : cfg0.N = 25 := N_0; have := p.isLt; omega⟩

/-- Point t's block of the neighbour means is rows 2000 t ... of the means. -/
theorem means_block (c : Dev nD) (t : Fin cfg0.N) (p : Fin 2000) (k : Fin 128) :
    (iblk m c 0 t : Vec Ideal S2000x128 .f32) (ix2 p k) = means m c (ix2 (nodeOf t p) k) := by
  obtain ⟨e0, e1, -⟩ := block_indices t
  unfold iblk
  rw [View.read_apply]
  refine congrArg (means m c) ?_
  funext a
  apply Fin.ext
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- Point t's block of the node features is the same rows of the features. -/
theorem feats_block (c : Dev nD) (t : Fin cfg0.N) (p : Fin 2000) (k : Fin 128) :
    (iblk m c 1 t : Vec Ideal S2000x128 .f32) (ix2 p k) = feats m c (ix2 (nodeOf t p) k) := by
  obtain ⟨-, -, e0, e1, -⟩ := block_indices t
  unfold iblk
  rw [View.read_apply]
  refine congrArg (feats m c) ?_
  funext a
  apply Fin.ext
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- Every point is handed the neighbour weights whole. -/
theorem wNbr_block (c : Dev nD) (t : Fin cfg0.N) : (iblk m c 2 t : Vec Ideal S128x128 .f32) = wNbr m c := by
  obtain ⟨-, -, -, -, e0, e1, -⟩ := block_indices t
  funext y
  unfold iblk
  rw [View.read_apply]
  refine congrArg (wNbr m c) ?_
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Every point is handed the bias row whole. -/
theorem bias_block (c : Dev nD) (t : Fin cfg0.N) : (iblk m c 3 t : Vec Ideal S1x128 .f32) = biasRow m c := by
  obtain ⟨-, -, -, -, -, -, e0, e1, -⟩ := block_indices t
  funext y
  unfold iblk
  rw [View.read_apply]
  refine congrArg (biasRow m c) ?_
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- Every point is handed the self weights whole. -/
theorem wSelf_block (c : Dev nD) (t : Fin cfg0.N) : (iblk m c 4 t : Vec Ideal S128x128 .f32) = wSelf m c := by
  obtain ⟨-, -, -, -, -, -, -, -, e0, e1, -⟩ := block_indices t
  funext y
  unfold iblk
  rw [View.read_apply]
  refine congrArg (wSelf m c) ?_
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-! ## What a point stores is its rows of the layer -/

/-- Over any five loaded blocks that are rows `row p` of the means and of the features, and the weights and bias row
    whole: the body's stored value at entry j of the block is the layer at (row (j 0), j 1). A row of the layer reads
    only that row of the means and of the features. -/
theorem stored_is_layer (x mean : S50000x128.Idx → EReal) (wl wr : S128x128.Idx → EReal) (brow : S1x128.Idx → EReal)
    (v0 v3 : Vec Ideal S2000x128 .f32) (v5 v7 : Vec Ideal S128x128 .f32) (v11 : Vec Ideal S1x128 .f32)
    (row : Fin 2000 → Fin 50000)
    (h0 : ∀ p k, v0 (ix2 p k) = mean (ix2 (row p) k)) (h3 : ∀ p k, v3 (ix2 p k) = x (ix2 (row p) k))
    (h5 : v5 = wl) (h7 : v7 = wr) (h11 : v11 = brow) (j : S2000x128.Idx) :
    k0_pay1 (F := Ideal) v0 v3 v5 v7 v11 j
      = Cert.SageLayer.layer x mean wl wr (fun b => brow (ix2 (0 : Fin 1) (b 0))) (ix2 (row (j 0)) (j 1)) := by
  obtain ⟨p, q, rfl⟩ : ∃ (p : Fin 2000) (q : Fin 128), j = ix2 p q := ⟨j 0, j 1, eq_ix2 j⟩
  show k0_pay1 (F := Ideal) v0 v3 v5 v7 v11 (ix2 p q)
      = Cert.SageLayer.layer x mean wl wr (fun b => brow (ix2 (0 : Fin 1) (b 0))) (ix2 (row p) q)
  rw [DenseBlock.payload_apply, Cert.SageLayer.layer_apply]
  unfold Cert.SageLayer.preact
  subst h5 h7 h11
  simp only [h0, h3]

/-- WHAT POINT t WRITES BACK is block t of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero zero_offsets]
  simp only [View.ld_unit_zero (S := S2000x128) zero_offsets, View.ld_unit_zero (S := S128x128) zero_offsets,
    View.ld_unit_zero (S := S1x128) zero_offsets]
  obtain ⟨-, -, -, -, -, -, -, -, -, -, e0, e1⟩ := block_indices t
  funext j
  show k0_pay1 (F := Ideal) (iblk m c 0 t) (iblk m c 1 t) (iblk m c 2 t) (iblk m c 4 t) (iblk m c 3 t) j
      = result m c (((cfg0.win 5).blk t).view.emb j)
  refine (stored_is_layer (feats m c) (means m c) (wNbr m c) (wSelf m c) (biasRow m c)
    (iblk m c 0 t) (iblk m c 1 t) (iblk m c 2 t) (iblk m c 4 t) (iblk m c 3 t) (nodeOf t)
    (means_block m c t) (feats_block m c t) (wNbr_block m c t) (wSelf_block m c t) (bias_block m c t) j).trans ?_
  show result m c (ix2 (nodeOf t (j 0)) (j 1)) = result m c (((cfg0.win 5).blk t).view.emb j)
  refine congrArg (result m c) ?_
  funext a
  apply Fin.ext
  match a with
  | ⟨0, _⟩ => show t.val * 2000 + (j 0).val = win0_5.index t (0 : Fin 2) * 2000 + 1 * (j 0).val; rw [e0]; omega
  | ⟨1, _⟩ => show (j 1).val = win0_5.index t (1 : Fin 2) * 128 + 1 * (j 1).val; rw [e1]; omega

/-! ## The 25 row blocks tile the array -/

/-- An index of the array is in point t's block iff each coordinate is in the block's range on its axis. -/
theorem mem_block (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v24).slice (win0_5.rect t)).set ↔ _
  rw [View.set_slice_whole, Rect.mem_set_unit]
  exact Iff.rfl

/-- Node r is written back by point r / 2000. -/
theorem covered (i : S50000x128.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  have ht : (i 0).val / 2000 < cfg0.N := by omega
  obtain ⟨-, -, -, -, -, -, -, -, -, -, e0, e1⟩ := block_indices ⟨(i 0).val / 2000, ht⟩
  refine ⟨⟨(i 0).val / 2000, ht⟩, flush0_5 _, ?_⟩
  rw [mem_block]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win0_5.index ⟨(i 0).val / 2000, ht⟩ (1 : Fin 2) * 128 ≤ (i 1).val
      ∧ (i 1).val < win0_5.index ⟨(i 0).val / 2000, ht⟩ (1 : Fin 2) * 128 + 128
    rw [e1]
    omega

/-- THE ARRAY after the run is `result`. -/
theorem final (c : Dev nD) : (dats m 0 c).arrAt 5 cfg0.N = result m c :=
  (dats m 0 c).arrAt_eq_of_cover 5 (result m c) (fun t _ => flushed_eq m c t) covered

/-- The kernel's run: every weakly fair execution ends with the result array at `result` and the arguments as
    launched. -/
theorem run : θ_run defs (onTc (τ := τ) (main (F := Ideal))) ⟨m, fun _ => 0, ρ⟩ fun r => ∀ c : Dev nD,
      r.2.mem ((c : Thread nD τ).loc main_v24) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.LayerBlocks

end
-- ==== Proof.HostPrefix.lean ====
/-
  What the kernel's host operations hand to the region: the neighbour means and the bias row.

  Before the region the program gathers the source node's features along every edge, adds them into the edge's
  target node, counts the edges into each target the same way, and divides the sums by the counts (at least one).
  That array of means is the region's first operand. How it depends on the features and the edge list is never
  opened here: the reference computes it by the same operations, so it is carried as ONE function of the two
  arguments. The bias is handed over reshaped to a single row, whose entry (0, q) is the bias at q.
-/
import proofs.«123076_j31138512896564_1_alg».proof.Proof.Gen.KernelIdeal.Frame
import Idealize.ShloMosaic.Lib.StableHlo.Run
import Idealize.ShloMosaic.Lib.Pipeline.Value
import Idealize.ShloMosaic.Lib.ValueIdx

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The per-node mean of the neighbours' features, as the host operations before the region compute it from the
    node features `x0` and the edge list `x1` (row 0 the sources, row 1 the targets; a negative source index is
    taken from the end): the scatter-added gathered features over the scatter-added edge counts, the counts raised
    to at least one. -/
def neighbourMean (x0 : (⟨S50000x128, .f32⟩ : BufTy).Contents (Elt F)) (x1 : (⟨S2x625000, .i32⟩ : BufTy).Contents (Elt F)) :
    (⟨S50000x128, .f32⟩ : BufTy).Contents (Elt F) :=
  Host.divf
    (Host.scatterAdd scatter_S50000x128_S625000x1_S625000x128_1_0_0_1
      (broadcastInDim S50000x128 ![] bcast_S_S50000x128 (constant (F := F) S_ .f32 0x00000000#32))
      (broadcastInDim S625000x1 ![0] bcast_S625000_S625000x1_0 (shapeCast _ (extractStridedSlice S1x625000 ![1, 0] x1 slices_S2x625000_S1x625000_1_0) shapeCasts_S1x625000_S625000))
      (Host.gather gather_S50000x128_S625000x1_S625000x128_1_0_n_n_0_1_1128 x0
        (broadcastInDim S625000x1 ![0] bcast_S625000_S625000x1_0
          (select (cmpi .slt (shapeCast _ (extractStridedSlice S1x625000 ![0, 0] x1 slices_S2x625000_S1x625000_0_0) shapeCasts_S1x625000_S625000) (broadcastInDim S625000 ![] bcast_S_S625000 (constantI S_ 32 0#32)))
            (addi (shapeCast _ (extractStridedSlice S1x625000 ![0, 0] x1 slices_S2x625000_S1x625000_0_0) shapeCasts_S1x625000_S625000) (broadcastInDim S625000 ![] bcast_S_S625000 (constantI S_ 32 50000#32)))
            (shapeCast _ (extractStridedSlice S1x625000 ![0, 0] x1 slices_S2x625000_S1x625000_0_0) shapeCasts_S1x625000_S625000)))))
    (broadcastInDim S50000x128 ![0, 1] bcast_S50000x1_S50000x128_0_1
      (broadcastInDim S50000x1 ![0] bcast_S50000_S50000x1_0
        (maximumf
          (Host.scatterAdd scatter_S50000_S625000x1_S625000_n_0_0_1
            (broadcastInDim S50000 ![] bcast_S_S50000 (constant (F := F) S_ .f32 0x00000000#32))
            (broadcastInDim S625000x1 ![0] bcast_S625000_S625000x1_0 (shapeCast _ (extractStridedSlice S1x625000 ![1, 0] x1 slices_S2x625000_S1x625000_1_0) shapeCasts_S1x625000_S625000))
            (broadcastInDim S625000 ![] bcast_S_S625000 (constant (F := F) S_ .f32 0x3F800000#32)))
          (broadcastInDim S50000 ![] bcast_S_S50000 (constant (F := F) S_ .f32 0x3F800000#32)))))

variable (m : (ℓ : Loc nD τ sig) → Buf (Elt F) ℓ)

set_option maxHeartbeats 2000000 in
/-- The region's first operand is the neighbour mean of the launch contents of the features and the edge list. -/
theorem mean_entry (c : Dev nD) :
    (V m c main_v22 : S50000x128.Idx → Elt F .f32)
      = neighbourMean (m ((c : Thread nD τ).loc main_arg0)) (m ((c : Thread nD τ).loc main_arg1)) := by
  dsimp only [Gen.V, Gen.hostOps0]
  after_results_simp <;> rfl

/-- The region's fourth operand is the bias reshaped to one row. -/
theorem bias_entry (c : Dev nD) :
    (V m c main_v23 : S1x128.Idx → Elt F .f32)
      = shapeCast S1x128 (m ((c : Thread nD τ).loc main_arg3) : S128.Idx → Elt F .f32) shapeCasts_S128_S1x128 := by
  dsimp only [Gen.V, Gen.hostOps0]
  after_results
  rfl

/-- Entry (0, q) of the bias row is the bias at q: the two indices have the same row-major position. -/
theorem bias_row_apply (c : Dev nD) (q : Fin 128) :
    (V m c main_v23 : S1x128.Idx → Elt F .f32) (ix2 (0 : Fin 1) q)
      = (m ((c : Thread nD τ).loc main_arg3) : S128.Idx → Elt F .f32) (ix1 q) := by
  rw [bias_entry]
  refine shapeCast_apply _ _ _ _ ?_
  show (S128.rowMajor (ix1 q)).val = (S1x128.rowMajor (ix2 (0 : Fin 1) q)).val
  rw [Shape.rowMajor_val_one, Shape.rowMajor_val_two]
  show q.val = 0 * 128 + q.val
  omega

end Cert.KernelIdeal.HostPrefix

end
-- ==== Proof.KernelLayer.lean ====
/-
  The kernel's result array in terms of what the program was launched with.

  No host operation before the region writes an argument, so the region finds the node features and the two weight
  matrices as launched; the neighbour means are the host operations' function of the features and the edge list;
  and entry (0, q) of the bias row is the bias at q. Hence the result array is the layer of the launched features,
  their neighbour means, the launched weights and the launched bias.
-/
import proofs.«123076_j31138512896564_1_alg».proof.Proof.LayerBlocks
import proofs.«123076_j31138512896564_1_alg».proof.Proof.HostPrefix

noncomputable section

namespace Cert.KernelIdeal.KernelLayer

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

/-- The bias read off its row is the launched bias. -/
theorem bias_of_row (c : Dev nD) :
    (fun b : S128.Idx => (V m c main_v23 : S1x128.Idx → EReal) (ix2 (0 : Fin 1) (b 0)))
      = (m ((c : Thread nD τ).loc main_arg3) : S128.Idx → EReal) :=
  funext fun b => (HostPrefix.bias_row_apply m c (b 0)).trans (congrArg _ (eq_ix1 b).symm)

/-- THE RESULT ARRAY is the layer of the launched arguments, at the neighbour means of the launched features and
    edge list. -/
theorem result_eq (c : Dev nD) :
    LayerBlocks.result m c
      = Cert.SageLayer.layer (m ((c : Thread nD τ).loc main_arg0))
          (HostPrefix.neighbourMean (F := Ideal) (m ((c : Thread nD τ).loc main_arg0)) (m ((c : Thread nD τ).loc main_arg1)))
          (m ((c : Thread nD τ).loc main_arg2)) (m ((c : Thread nD τ).loc main_arg4)) (m ((c : Thread nD τ).loc main_arg3)) := by
  show Cert.SageLayer.layer (V m c main_arg0) (V m c main_v22) (V m c main_arg2) (V m c main_arg4)
      (fun b : S128.Idx => (V m c main_v23 : S1x128.Idx → EReal) (ix2 (0 : Fin 1) (b 0))) = _
  rw [bias_of_row, V_main_arg0, V_main_arg2, V_main_arg4, HostPrefix.mean_entry]

end Cert.KernelIdeal.KernelLayer

end
-- ==== Proof.ReferenceLayer.lean ====
/-
  The reference program's result, read one operation at a time, is the layer of SageLayer.lean at the neighbour
  means the reference's own host operations produce.

  Its two `dot_general`s are the sums over the contracted channel, its bias is repeated down the rows by two
  broadcasts, its rectifier is the maximum with a zero splat, and the last addition puts the node's own features
  back: the same summands in the same grouping as the layer, so after each operation is read at an index the two
  sides differ only in how the operand indices are spelt.
-/
import proofs.«123076_j31138512896564_1_alg».proof.Proof.Gen.ReferenceIdeal.Read
import proofs.«123076_j31138512896564_1_alg».proof.Proof.SageLayer

noncomputable section

open scoped BigOperators

namespace Cert.ReferenceIdeal.Layer

open Cert.ReferenceIdeal Cert.ReferenceIdeal.Read Idealize.ShloMosaic Idealize.ShloMosaic.ValueIdx

/-! ## The operand indices of the reference's operations, by coordinates -/

theorem lidx23 (i : S50000x128.Idx) (k : Fin 128) : lidx_main_v23 i k = ix2 (i 0) k :=
  funext fun a => Fin.ext (by match a with | ⟨0, _⟩ => rfl | ⟨1, _⟩ => rfl)
theorem ridx23 (i : S50000x128.Idx) (k : Fin 128) : ridx_main_v23 i k = ix2 k (i 1) :=
  funext fun a => Fin.ext (by match a with | ⟨0, _⟩ => rfl | ⟨1, _⟩ => rfl)
theorem lidx27 (i : S50000x128.Idx) (k : Fin 128) : lidx_main_v27 i k = ix2 (i 0) k :=
  funext fun a => Fin.ext (by match a with | ⟨0, _⟩ => rfl | ⟨1, _⟩ => rfl)
theorem ridx27 (i : S50000x128.Idx) (k : Fin 128) : ridx_main_v27 i k = ix2 k (i 1) :=
  funext fun a => Fin.ext (by match a with | ⟨0, _⟩ => rfl | ⟨1, _⟩ => rfl)
/-- The bias, broadcast to a row and then down the rows, is read at the output channel. -/
theorem bias_idx (i : S50000x128.Idx) : idx_main_v24 (idx_main_v25 i) = ix1 (i 1) :=
  funext fun a => Fin.ext (by match a with | ⟨0, _⟩ => rfl)

/-- THE REFERENCE'S RESULT is the layer: of the node features `x0`, the neighbour means its host operations
    compute from `x0` and the edge list `x1`, the weights `x2`, `x4` and the bias `x3`. -/
theorem result_eq (x0 : (⟨S50000x128, .f32⟩ : BufTy).Contents (Elt Ideal)) (x1 : (⟨S2x625000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) :
    val_main_v30 (F := Ideal) x0 x1 x2 x3 x4
      = Cert.SageLayer.layer x0 (val_main_v22 (F := Ideal) x0 x1) x2 x4 x3 := by
  funext i
  rw [val_main_v30_apply, val_main_v29_apply, val_main_v28_apply, val_main_v26_apply, val_main_v23_apply,
    val_main_v25_apply, val_main_v24_apply, val_main_v27_apply, val_main_call0_v0_apply, val_main_call0_cst_apply]
  simp only [lidx23, ridx23, lidx27, ridx27, bias_idx, Ideal.addf_def, Ideal.maximumf_def, Ideal.ofBits_def]
  rfl

end Cert.ReferenceIdeal.Layer

end
-- ==== Proof.SharedMean.lean ====
/-
  Both programs obtain the neighbour means by the same host operations: the reference's stage that divides the
  scatter-added gathered features by the scatter-added edge counts is, operation for operation and word for word,
  the kernel program's prefix. The two programs name the same dimension records and the same shape side conditions
  separately; a record is its fields and a side condition is a proposition, so the two terms are one.
-/
import proofs.«123076_j31138512896564_1_alg».proof.Proof.HostPrefix
import proofs.«123076_j31138512896564_1_alg».proof.Proof.Gen.ReferenceIdeal.Read

noncomputable section

namespace Cert.Proof.SharedMean

open Idealize.ShloMosaic

variable {F : FTy → Type} [FloatOps F]

/-- The reference's neighbour-mean stage is the kernel program's `neighbourMean`. -/
theorem mean_agrees (x0 : (⟨Cert.KernelIdeal.S50000x128, .f32⟩ : BufTy).Contents (Elt F))
    (x1 : (⟨Cert.KernelIdeal.S2x625000, .i32⟩ : BufTy).Contents (Elt F)) :
    Cert.ReferenceIdeal.Read.val_main_v22 (F := F) x0 x1 = Cert.KernelIdeal.HostPrefix.neighbourMean (F := F) x0 x1 := rfl

end Cert.Proof.SharedMean

end
-- ==== Proof.lean ====
/-
  The kernel computes one mean-aggregating graph layer with a residual connection,

      out[r,q] = x[r,q] + max( ((sum_k mean[r,k] * W_l[k,q]) + b_l[q]) + sum_k x[r,k] * W_r[k,q] , 0 ),

  where mean[r,:] is the mean of x over the edges into node r (the sum of the gathered source rows divided by the
  edge count, the count raised to at least one). The host operations that produce `mean` are the same in the kernel
  program and in the reference; the kernel then evaluates the dense part in 25 blocks of 2000 nodes, the reference
  in one piece. Over the extended reals a narrowing of a float format is the identity and a matrix product into a
  zero accumulator is the plain sum over the contracted channel, so block t of the kernel's result is rows
  2000 t ... 2000 t + 1999 of the reference's, summand for summand in the same grouping: no law of the extended
  reals beyond that is used, and the finiteness of the inputs is never opened.

  SageLayer.lean states the layer index by index; DenseBlock.lean reads the kernel body's stored value at an entry
  of a block; LayerBlocks.lean carries the blocks to the whole array; HostPrefix.lean and KernelLayer.lean express the
  arrays the region finds through the launched arguments; ReferenceLayer.lean reads the reference's operations at an
  index; SharedMean.lean identifies the two programs' neighbour means. The three frames are the programs' runs with
  the results dropped, and the idealization rewrote nothing, so its conjunct is trivial.
-/
import proofs.«123076_j31138512896564_1_alg».proof.Defs
import proofs.«123076_j31138512896564_1_alg».proof.Proof.Gen.Kernel
import proofs.«123076_j31138512896564_1_alg».proof.Proof.Gen.Kernel.Skeleton
import proofs.«123076_j31138512896564_1_alg».proof.Proof.Gen.Kernel.Launch
import proofs.«123076_j31138512896564_1_alg».proof.Proof.Gen.Kernel.Points
import proofs.«123076_j31138512896564_1_alg».proof.Proof.Gen.Kernel.Frame
import proofs.«123076_j31138512896564_1_alg».proof.Proof.Gen.KernelIdeal
import proofs.«123076_j31138512896564_1_alg».proof.Proof.Gen.KernelIdeal.Skeleton
import proofs.«123076_j31138512896564_1_alg».proof.Proof.Gen.KernelIdeal.Launch
import proofs.«123076_j31138512896564_1_alg».proof.Proof.Gen.KernelIdeal.Points
import proofs.«123076_j31138512896564_1_alg».proof.Proof.Gen.KernelIdeal.Frame
import proofs.«123076_j31138512896564_1_alg».proof.Proof.Gen.ReferenceIdeal
import proofs.«123076_j31138512896564_1_alg».proof.Proof.Gen.Pre_finite_inputs
import proofs.«123076_j31138512896564_1_alg».proof.Proof.Gen.KernelIdeal.Value
import proofs.«123076_j31138512896564_1_alg».proof.Proof.Gen.ReferenceIdeal.Run
import proofs.«123076_j31138512896564_1_alg».proof.Proof.Gen.ReferenceIdeal.Read
import proofs.«123076_j31138512896564_1_alg».proof.Proof.KernelLayer
import proofs.«123076_j31138512896564_1_alg».proof.Proof.ReferenceLayer
import proofs.«123076_j31138512896564_1_alg».proof.Proof.SharedMean
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments both programs end with the result array at the layer of the
    launched features, their neighbour means, the launched weights and the launched bias: the kernel's array block by
    block (LayerBlocks, KernelLayer), the reference's operation by operation (ReferenceLayer), the means one function
    of the features and the edge list in both (SharedMean). -/
theorem algebraic : Cert.algebraic_KernelIdeal_ReferenceIdeal := by
  intro m ρ m' ρ' _ hagree
  refine ⟨fun c => Cert.KernelIdeal.LayerBlocks.result m c, Cert.KernelIdeal.LayerBlocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v30_eq, Cert.ReferenceIdeal.Layer.result_eq, a0, a1, a2, a3, a4,
    SharedMean.mean_agrees]
  exact (Cert.KernelIdeal.KernelLayer.result_eq m c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
